-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S4x40000x2 : Shape := ⟨3, ![4, 40000, 2]⟩
abbrev S4x512x512 : Shape := ⟨3, ![4, 512, 512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_

variable [Facts]

def fn {F : FTy → Type} [FloatOps F] (main_arg0 : FVec F S50000x512 .f32) (main_arg1 : IVec S4x40000x2 32) (main_arg2 : FVec F S4x512x512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S4x512x512 .f32 := Host.absf main_arg2
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  main_v8
-- ==== Kernel.lean ====
abbrev S50000x512 : Shape := ⟨2, ![50000, 512]⟩
abbrev S4x40000x2 : Shape := ⟨3, ![4, 40000, 2]⟩
abbrev S4x512x512 : Shape := ⟨3, ![4, 512, 512]⟩
abbrev S4x40000x1 : Shape := ⟨3, ![4, 40000, 1]⟩
abbrev S4x40000 : Shape := ⟨2, ![4, 40000]⟩
abbrev S_ : Shape := ⟨0, ![]⟩
abbrev S4x40000x512 : Shape := ⟨3, ![4, 40000, 512]⟩
abbrev S1x2000x512 : Shape := ⟨3, ![1, 2000, 512]⟩
abbrev S1x512x512 : Shape := ⟨3, ![1, 512, 512]⟩
abbrev S2000x512 : Shape := ⟨2, ![2000, 512]⟩
abbrev S512x512 : Shape := ⟨2, ![512, 512]⟩
abbrev S160000x512 : Shape := ⟨2, ![160000, 512]⟩
abbrev S160000 : Shape := ⟨1, ![160000]⟩
abbrev S160000x1 : Shape := ⟨2, ![160000, 1]⟩

abbrev nBuf : Space → Nat
  | .hbm => 26
  | .vmem => 6
  | .smem => 0
  | _ => 0

abbrev bufTy : (tb : Table) → Fin (tcTables nBuf tb) → BufTy
  | .hbm, ⟨0, _⟩ => ⟨S50000x512, .f32⟩
  | .hbm, ⟨1, _⟩ => ⟨S4x40000x2, .i32⟩
  | .hbm, ⟨2, _⟩ => ⟨S4x512x512, .f32⟩
  | .hbm, ⟨3, _⟩ => ⟨S4x40000x1, .i32⟩
  | .hbm, ⟨4, _⟩ => ⟨S4x40000, .i32⟩
  | .hbm, ⟨5, _⟩ => ⟨S4x40000x1, .i32⟩
  | .hbm, ⟨6, _⟩ => ⟨S4x40000, .i32⟩
  | .hbm, ⟨7, _⟩ => ⟨S_, .i32⟩
  | .hbm, ⟨8, _⟩ => ⟨S4x40000, .i32⟩
  | .hbm, ⟨9, _⟩ => ⟨S4x40000, .i1⟩
  | .hbm, ⟨10, _⟩ => ⟨S_, .i32⟩
  | .hbm, ⟨11, _⟩ => ⟨S4x40000, .i32⟩
  | .hbm, ⟨12, _⟩ => ⟨S4x40000, .i32⟩
  | .hbm, ⟨13, _⟩ => ⟨S4x40000, .i32⟩
  | .hbm, ⟨14, _⟩ => ⟨S4x40000x1, .i32⟩
  | .hbm, ⟨15, _⟩ => ⟨S4x40000x512, .f32⟩
  | .hbm, ⟨16, _⟩ => ⟨S4x40000x512, .f32⟩
  | .hbm, ⟨17, _⟩ => ⟨S160000x512, .f32⟩
  | .hbm, ⟨18, _⟩ => ⟨S160000, .i32⟩
  | .hbm, ⟨19, _⟩ => ⟨S_, .f32⟩
  | .hbm, ⟨20, _⟩ => ⟨S50000x512, .f32⟩
  | .hbm, ⟨21, _⟩ => ⟨S160000x1, .i32⟩
  | .hbm, ⟨22, _⟩ => ⟨S50000x512, .f32⟩
  | .hbm, ⟨23, _⟩ => ⟨S_, .f32⟩
  | .hbm, ⟨24, _⟩ => ⟨S50000x512, .f32⟩
  | .hbm, ⟨25, _⟩ => ⟨S50000x512, .f32⟩
  | .local _ .vmem, ⟨0, _⟩ => ⟨S1x2000x512, .f32⟩
  | .local _ .vmem, ⟨1, _⟩ => ⟨S1x2000x512, .f32⟩
  | .local _ .vmem, ⟨2, _⟩ => ⟨S1x512x512, .f32⟩
  | .local _ .vmem, ⟨3, _⟩ => ⟨S1x512x512, .f32⟩
  | .local _ .vmem, ⟨4, _⟩ => ⟨S1x2000x512, .f32⟩
  | .local _ .vmem, ⟨5, _⟩ => ⟨S1x2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_cst : Ref sig .tc := ⟨.hbm, 23, rfl⟩
abbrev main_call0_v0 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 20], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S4x40000x2_S4x40000x1_0_0_0 : S4x40000x2.Slices ![0, 0, 0] S4x40000x1
  shapeCasts_S4x40000x1_S4x40000 : S4x40000x1.ShapeCasts S4x40000
  slices_S4x40000x2_S4x40000x1_0_0_1 : S4x40000x2.Slices ![0, 0, 1] S4x40000x1
  bcast_S_S4x40000 : S_.BroadcastsInDim S4x40000 (![] : Fin 0 → Fin S4x40000.rank)
  bcast_S4x40000_S4x40000x1_0_1 : S4x40000.BroadcastsInDim S4x40000x1 (![0, 1] : Fin 2 → Fin S4x40000x1.rank)
  inb_S1x2000x512_S1x2000x512_0_0_0 : ∀ a, (![0, 0, 0] : Fin 3 → Nat) a + S1x2000x512.size a ≤ S1x2000x512.size a
  h_S1x2000x512 : 0 < S1x2000x512.numel
  shapeCasts_S1x2000x512_S2000x512 : S1x2000x512.ShapeCasts S2000x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S2000x512_S1x2000x512 : S2000x512.ShapeCasts S1x2000x512
  shapeCasts_S4x40000x512_S160000x512 : S4x40000x512.ShapeCasts S160000x512
  shapeCasts_S4x40000_S160000 : S4x40000.ShapeCasts S160000
  bcast_S_S50000x512 : S_.BroadcastsInDim S50000x512 (![] : Fin 0 → Fin S50000x512.rank)
  bcast_S160000_S160000x1_0 : S160000.BroadcastsInDim S160000x1 (![0] : Fin 1 → Fin S160000x1.rank)
  gather_S50000x512_S4x40000x1_S4x40000x512_2_0_n_n_0_2_1512_wf : GatherDims.WF S50000x512 S4x40000x1 S4x40000x512 [2] [0] [] [0] [] 2 ![1, 512]
  dot_S2000x512_S512x512_S2000x512_1_0_0_1_n_n_wf : DotDims.WF S2000x512 S512x512 S2000x512 [1] [0] [0] [1] [] []
  scatter_S50000x512_S160000x1_S160000x512_1_0_0_1_wf : ScatterDims.WF S50000x512 S160000x1 S160000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x512.size a ≤ S4x40000x512.size a
  hwx0_0 : ∀ i : grid0.Coords, EltTy.bits .f32 = 32 ∨ (Rect.block (s := S4x40000x512) S1x2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S4x512x512.size a
  hwx0_1 : ∀ i : grid0.Coords, EltTy.bits .f32 = 32 ∨ (Rect.block (s := S4x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2000x512.size a ≤ S4x40000x512.size a
  hwx0_2 : ∀ i : grid0.Coords, EltTy.bits .f32 = 32 ∨ (Rect.block (s := S4x40000x512) S1x2000x512.size (cc0_transform_2 i) (hinb0_2 i)).WholeWords (EltTy.packing .f32)

variable [Facts₀]

def gather_S50000x512_S4x40000x1_S4x40000x512_2_0_n_n_0_2_1512 : GatherDims S50000x512 S4x40000x1 S4x40000x512 where
  offsetDims := [2]
  collapsedSliceDims := [0]
  operandBatchingDims := []
  startIndicesBatchingDims := []
  startIndexMap := [0]
  indexVectorDim := 2
  sliceSizes := ![1, 512]
  wf := gather_S50000x512_S4x40000x1_S4x40000x512_2_0_n_n_0_2_1512_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def scatter_S50000x512_S160000x1_S160000x512_1_0_0_1 : ScatterDims S50000x512 S160000x1 S160000x512 where
  updateWindowDims := [1]
  insertedWindowDims := [0]
  scatterDimsToOperandDims := [0]
  indexVectorDim := 1
  wf := scatter_S50000x512_S160000x1_S160000x512_1_0_0_1_wf

abbrev win0_0 : Pipeline.Window sig grid0 :=
  Pipeline.Window.ofSpec (Memref.whole main_v10) S1x2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S4x40000x2 : Shape := ⟨3, ![4, 40000, 2]⟩
abbrev S4x512x512 : Shape := ⟨3, ![4, 512, 512]⟩
abbrev S4x40000x1 : Shape := ⟨3, ![4, 40000, 1]⟩
abbrev S4x40000 : Shape := ⟨2, ![4, 40000]⟩
abbrev S_ : Shape := ⟨0, ![]⟩
abbrev S4x40000x512 : Shape := ⟨3, ![4, 40000, 512]⟩
abbrev S160000x512 : Shape := ⟨2, ![160000, 512]⟩
abbrev S160000 : Shape := ⟨1, ![160000]⟩
abbrev S160000x1 : Shape := ⟨2, ![160000, 1]⟩

abbrev nBuf : Space → Nat
  | .hbm => 26
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S4x40000x2, .i32⟩
  | .hbm, ⟨2, _⟩ => ⟨S4x512x512, .f32⟩
  | .hbm, ⟨3, _⟩ => ⟨S4x40000x1, .i32⟩
  | .hbm, ⟨4, _⟩ => ⟨S4x40000, .i32⟩
  | .hbm, ⟨5, _⟩ => ⟨S4x40000x1, .i32⟩
  | .hbm, ⟨6, _⟩ => ⟨S4x40000, .i32⟩
  | .hbm, ⟨7, _⟩ => ⟨S_, .i32⟩
  | .hbm, ⟨8, _⟩ => ⟨S4x40000, .i32⟩
  | .hbm, ⟨9, _⟩ => ⟨S4x40000, .i1⟩
  | .hbm, ⟨10, _⟩ => ⟨S_, .i32⟩
  | .hbm, ⟨11, _⟩ => ⟨S4x40000, .i32⟩
  | .hbm, ⟨12, _⟩ => ⟨S4x40000, .i32⟩
  | .hbm, ⟨13, _⟩ => ⟨S4x40000, .i32⟩
  | .hbm, ⟨14, _⟩ => ⟨S4x40000x1, .i32⟩
  | .hbm, ⟨15, _⟩ => ⟨S4x40000x512, .f32⟩
  | .hbm, ⟨16, _⟩ => ⟨S4x40000x512, .f32⟩
  | .hbm, ⟨17, _⟩ => ⟨S160000x512, .f32⟩
  | .hbm, ⟨18, _⟩ => ⟨S160000, .i32⟩
  | .hbm, ⟨19, _⟩ => ⟨S_, .f32⟩
  | .hbm, ⟨20, _⟩ => ⟨S50000x512, .f32⟩
  | .hbm, ⟨21, _⟩ => ⟨S160000x1, .i32⟩
  | .hbm, ⟨22, _⟩ => ⟨S50000x512, .f32⟩
  | .hbm, ⟨23, _⟩ => ⟨S_, .f32⟩
  | .hbm, ⟨24, _⟩ => ⟨S50000x512, .f32⟩
  | .hbm, ⟨25, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_cst : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  slices_S4x40000x2_S4x40000x1_0_0_0 : S4x40000x2.Slices ![0, 0, 0] S4x40000x1
  shapeCasts_S4x40000x1_S4x40000 : S4x40000x1.ShapeCasts S4x40000
  slices_S4x40000x2_S4x40000x1_0_0_1 : S4x40000x2.Slices ![0, 0, 1] S4x40000x1
  bcast_S_S4x40000 : S_.BroadcastsInDim S4x40000 (![] : Fin 0 → Fin S4x40000.rank)
  bcast_S4x40000_S4x40000x1_0_1 : S4x40000.BroadcastsInDim S4x40000x1 (![0, 1] : Fin 2 → Fin S4x40000x1.rank)
  shapeCasts_S4x40000x512_S160000x512 : S4x40000x512.ShapeCasts S160000x512
  shapeCasts_S4x40000_S160000 : S4x40000.ShapeCasts S160000
  bcast_S_S50000x512 : S_.BroadcastsInDim S50000x512 (![] : Fin 0 → Fin S50000x512.rank)
  bcast_S160000_S160000x1_0 : S160000.BroadcastsInDim S160000x1 (![0] : Fin 1 → Fin S160000x1.rank)
  gather_S50000x512_S4x40000x1_S4x40000x512_2_0_n_n_0_2_1512_wf : GatherDims.WF S50000x512 S4x40000x1 S4x40000x512 [2] [0] [] [0] [] 2 ![1, 512]
  dot_S4x40000x512_S4x512x512_S4x40000x512_2_1_1_2_0_0_wf : DotDims.WF S4x40000x512 S4x512x512 S4x40000x512 [2] [1] [1] [2] [0] [0]
  scatter_S50000x512_S160000x1_S160000x512_1_0_0_1_wf : ScatterDims.WF S50000x512 S160000x1 S160000x512 [1] [0] [0] 1

variable [Facts₀]

def gather_S50000x512_S4x40000x1_S4x40000x512_2_0_n_n_0_2_1512 : GatherDims S50000x512 S4x40000x1 S4x40000x512 where
  offsetDims := [2]
  collapsedSliceDims := [0]
  operandBatchingDims := []
  startIndicesBatchingDims := []
  startIndexMap := [0]
  indexVectorDim := 2
  sliceSizes := ![1, 512]
  wf := gather_S50000x512_S4x40000x1_S4x40000x512_2_0_n_n_0_2_1512_wf
def dot_S4x40000x512_S4x512x512_S4x40000x512_2_1_1_2_0_0 : DotDims S4x40000x512 S4x512x512 S4x40000x512 where
  lhsContracting := [2]
  rhsContracting := [1]
  lhsNonContracting := [1]
  rhsNonContracting := [2]
  lhsBatch := [0]
  rhsBatch := [0]
  wf := dot_S4x40000x512_S4x512x512_S4x40000x512_2_1_1_2_0_0_wf
def scatter_S50000x512_S160000x1_S160000x512_1_0_0_1 : ScatterDims S50000x512 S160000x1 S160000x512 where
  updateWindowDims := [1]
  insertedWindowDims := [0]
  scatterDimsToOperandDims := [0]
  indexVectorDim := 1
  wf := scatter_S50000x512_S160000x1_S160000x512_1_0_0_1_wf

class Facts : Prop extends Facts₀ where

variable [Facts]
-- ==== Proof.BlockProduct.lean ====
/-
  What one grid point of the message kernel stores, read at an index.

  At a grid point the body loads a `[1, 2000, 512]` block `x0` of gathered rows (2000 edges of one edge type) and that edge
  type's `[1, 512, 512]` weight block `x1`, drops the unit axis of each, passes both through the narrower float format
  (the identity on extended reals), multiplies them into a zero accumulator and stores the `[2000, 512]` product back
  under a unit axis. So entry `(0, p, q)` of the stored block is

      Σ_{k < 512} x0 (0, p, k) · x1 (0, k, q):

  the accumulator contributes `0`, the contraction runs over the one shared axis, and the unit-axis casts read the entry
  with the same row-major position.
-/
import proofs.«120066_j7507602833984_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx

/-! ## The product's operand indices, axis by axis -/

/-- The left operand's row is the output's row. -/
theorem lhs_rows (j : S2000x512.Idx) (q : dot_S2000x512_S512x512_S2000x512_1_0_0_1_n_n.contr.Idx) :
    (dot_S2000x512_S512x512_S2000x512_1_0_0_1_n_n.lhsIdx j q 0).val = (j 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
/-- The left operand's column is the contraction position. -/
theorem lhs_cols (j : S2000x512.Idx) (q : dot_S2000x512_S512x512_S2000x512_1_0_0_1_n_n.contr.Idx) :
    (dot_S2000x512_S512x512_S2000x512_1_0_0_1_n_n.lhsIdx j q 1).val = (q ⟨0, by decide⟩).val :=
  dot_S2000x512_S512x512_S2000x512_1_0_0_1_n_n.lhsIdx_val_of_single rfl j q
/-- The right operand's row is the contraction position. -/
theorem rhs_rows (j : S2000x512.Idx) (q : dot_S2000x512_S512x512_S2000x512_1_0_0_1_n_n.contr.Idx) :
    (dot_S2000x512_S512x512_S2000x512_1_0_0_1_n_n.rhsIdx j q 0).val = (q ⟨0, by decide⟩).val :=
  dot_S2000x512_S512x512_S2000x512_1_0_0_1_n_n.rhsIdx_val_of_single rfl j q
/-- The right operand's column is the output's column. -/
theorem rhs_cols (j : S2000x512.Idx) (q : dot_S2000x512_S512x512_S2000x512_1_0_0_1_n_n.contr.Idx) :
    (dot_S2000x512_S512x512_S2000x512_1_0_0_1_n_n.rhsIdx j q 1).val = (j 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-! ## The product into a zero accumulator, at an index -/

/-- Rows times columns: entry `(p, q)` of the product into zero is the sum over the shared axis. -/
theorem product_apply (a : FVec Ideal S2000x512 .bf16) (b : FVec Ideal S512x512 .bf16) (j : S2000x512.Idx) :
    matmul (F := Ideal) dot_S2000x512_S512x512_S2000x512_1_0_0_1_n_n none a b (constant (F := Ideal) S2000x512 .f32 0x00000000#32) j
      = ∑ k : Fin 512, a (ix2 (j 0) k) * b (ix2 k (j 1)) := by
  simp only [matmul]
  rw [Ideal.matmul_constant_zero_apply, ← Equiv.sum_comp (contrEquiv1 dot_S2000x512_S512x512_S2000x512_1_0_0_1_n_n 512 rfl rfl).symm]
  refine Finset.sum_congr rfl fun k _ => ?_
  have hk := contrEquiv1_symm_val dot_S2000x512_S512x512_S2000x512_1_0_0_1_n_n 512 rfl rfl k
  have el : dot_S2000x512_S512x512_S2000x512_1_0_0_1_n_n.lhsIdx j ((contrEquiv1 dot_S2000x512_S512x512_S2000x512_1_0_0_1_n_n 512 rfl rfl).symm k) = ix2 (j 0) k := funext fun a => Fin.ext (by
    match a with
    | ⟨0, _⟩ => exact lhs_rows _ _
    | ⟨1, _⟩ => exact (lhs_cols _ _).trans hk)
  have er : dot_S2000x512_S512x512_S2000x512_1_0_0_1_n_n.rhsIdx j ((contrEquiv1 dot_S2000x512_S512x512_S2000x512_1_0_0_1_n_n 512 rfl rfl).symm k) = ix2 k (j 1) := funext fun a => Fin.ext (by
    match a with
    | ⟨0, _⟩ => exact (rhs_rows _ _).trans hk
    | ⟨1, _⟩ => exact rhs_cols _ _)
  rw [el, er]
  rfl

/-! ## The unit-axis casts -/

/-- Dropping the unit axis of the gathered-rows block reads `(0, p, k)` at `(p, k)`. -/
theorem rows_dropUnit (x0 : Vec Ideal S1x2000x512 .f32) (p : Fin 2000) (k : Fin 512) :
    shapeCast S2000x512 x0 shapeCasts_S1x2000x512_S2000x512 (ix2 p k) = x0 (ix3 0 p k) :=
  shapeCast_apply x0 shapeCasts_S1x2000x512_S2000x512 (ix2 p k) (ix3 0 p k)
    (by rewrite [Shape.rowMajor_val_three, Shape.rowMajor_val_two]; show ((0 : Nat) * 2000 + p.val) * 512 + k.val = p.val * 512 + k.val; omega)

/-- Dropping the unit axis of the weight block reads `(0, k, q)` at `(k, q)`. -/
theorem weights_dropUnit (x1 : Vec Ideal S1x512x512 .f32) (k : Fin 512) (q : Fin 512) :
    shapeCast S512x512 x1 shapeCasts_S1x512x512_S512x512 (ix2 k q) = x1 (ix3 0 k q) :=
  shapeCast_apply x1 shapeCasts_S1x512x512_S512x512 (ix2 k q) (ix3 0 k q)
    (by rewrite [Shape.rowMajor_val_three, Shape.rowMajor_val_two]; show ((0 : Nat) * 512 + k.val) * 512 + q.val = k.val * 512 + q.val; omega)

/-- Adding the unit axis to the product reads `(p, q)` at `(0, p, q)`. -/
theorem product_addUnit (v : FVec Ideal S2000x512 .f32) (p : Fin 2000) (q : Fin 512) :
    shapeCast S1x2000x512 v shapeCasts_S2000x512_S1x2000x512 (ix3 0 p q) = v (ix2 p q) :=
  shapeCast_apply v shapeCasts_S2000x512_S1x2000x512 (ix3 0 p q) (ix2 p q)
    (by rewrite [Shape.rowMajor_val_three, Shape.rowMajor_val_two]; show p.val * 512 + q.val = ((0 : Nat) * 2000 + p.val) * 512 + q.val; omega)

/-! ## The stored block -/

/-- Entry `(0, p, q)` of what the body stores: the inner product of row `p` of the gathered-rows block with column `q`
    of the weight block. -/
theorem payload_apply (x0 : Vec Ideal S1x2000x512 .f32) (x1 : Vec Ideal S1x512x512 .f32) (p : Fin 2000) (q : Fin 512) :
    k0_pay1 (F := Ideal) x0 x1 (ix3 0 p q) = ∑ k : Fin 512, x0 (ix3 0 p k) * x1 (ix3 0 k q) := by
  show shapeCast S1x2000x512 (matmul (F := Ideal) dot_S2000x512_S512x512_S2000x512_1_0_0_1_n_n none
      (truncf .bf16 (shapeCast S2000x512 x0 shapeCasts_S1x2000x512_S2000x512) bitsLt_bf16_f32)
      (truncf .bf16 (shapeCast S512x512 x1 shapeCasts_S1x512x512_S512x512) bitsLt_bf16_f32)
      (constant (F := Ideal) S2000x512 .f32 0x00000000#32)) shapeCasts_S2000x512_S1x2000x512 (ix3 0 p q) = _
  refine (product_addUnit _ p q).trans ?_
  refine (product_apply _ _ (ix2 p q)).trans ?_
  refine Finset.sum_congr rfl fun k _ => ?_
  show shapeCast S2000x512 x0 shapeCasts_S1x2000x512_S2000x512 (ix2 p k) * shapeCast S512x512 x1 shapeCasts_S1x512x512_S512x512 (ix2 k q) = _
  rw [rows_dropUnit x0 p k, weights_dropUnit x1 k q]

end Cert.KernelIdeal.BlockValue

end
-- ==== Proof.Messages.lean ====
/-
  The per-edge messages as ONE function of the gathered source rows and the per-edge-type weights.

  For edge type `l`, edge `e` and output feature `h` the message is the inner product of the gathered row
  `g[l, e, ·]` with column `h` of that edge type's weight matrix `w[l, ·, h]`:

      messages g w (l, e, h) = Σ_{k < 512} g (l, e, k) · w (l, k, h).

  On the extended reals this is a plain finite sum: the kernel reaches it block by block (2000 edges of one edge type at a
  time, the factors passing through a narrower float format, which is the identity on extended reals, and added into a zero
  accumulator), the reference in one batched contraction. Both are this function; neither side needs any law beyond
  `0 + x = x` and re-indexing a finite sum, so no finiteness of the inputs is used.
-/
import Idealize.ShloMosaic.PureOps.Ideal
import Idealize.ShloMosaic.Lib.ValueIdx

noncomputable section

namespace Cert.Messages

open Idealize.ShloMosaic Idealize.ShloMosaic.ValueIdx

/-- The message array: one inner product over the 512 input features per (edge type, edge, output feature). -/
def messages (g : FVec Ideal ⟨3, ![4, 40000, 512]⟩ .f32) (w : FVec Ideal ⟨3, ![4, 512, 512]⟩ .f32) :
    FVec Ideal ⟨3, ![4, 40000, 512]⟩ .f32 :=
  fun i => ∑ k : Fin 512, g (ix3 (i 0) (i 1) k) * w (ix3 (i 0) k (i 2))

/-- The same read at explicit coordinates. -/
theorem messages_ix3 (g : FVec Ideal ⟨3, ![4, 40000, 512]⟩ .f32) (w : FVec Ideal ⟨3, ![4, 512, 512]⟩ .f32)
    (l : Fin 4) (e : Fin 40000) (h : Fin 512) :
    messages g w (ix3 l e h) = ∑ k : Fin 512, g (ix3 l e k) * w (ix3 l k h) := rfl

end Cert.Messages

end
-- ==== Proof.MessagesArray.lean ====
/-
  The message array after the kernel region, as one function of what the region finds.

  The grid is 4 edge types by 20 tiles of 2000 edges. At point `(l, b)` the region reads rows `2000·b … 2000·b + 1999` of edge
  type `l` of the gathered-rows array and the whole weight matrix of edge type `l`, and writes the same rows of edge type
  `l` of the message array. What it writes is the inner products of those rows with the weight columns
  (`BlockValue.payload_apply`), which is exactly the block of `Cert.Messages.messages` at those rows: the gathered-rows
  block sits at the output block's own position, the weight block at `(l, 0, 0)`. The 80 blocks tile the
  `[4, 40000, 512]` array — index `(l, e, h)` lies in the block of point `(l, e / 2000)` — so after the region the array
  is `messages` of the gathered rows and the weights, everywhere.
-/
import proofs.«120066_j7507602833984_1_alg».proof.Proof.Gen.KernelIdeal.Frame
import proofs.«120066_j7507602833984_1_alg».proof.Proof.BlockProduct
import proofs.«120066_j7507602833984_1_alg».proof.Proof.Messages
import Idealize.ShloMosaic.Lib.Pipeline.Value

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The gathered rows as the region finds them, at their literal type. -/
abbrev rowsArr (c : Dev nD) : FVec Ideal S4x40000x512 .f32 := V m c main_v10
/-- The weights as the region finds them, at their literal type. -/
abbrev weightsArr (c : Dev nD) : FVec Ideal S4x512x512 .f32 := V m c main_arg2

theorem offsets_zero : (![0, 0, 0] : Fin 3 → Nat) = fun _ => 0 := funext fun a => by fin_cases a <;> rfl

/-- The three index maps over the grid: the gathered-rows block moves with the output block, the weight block follows
    the edge type only, every block sits at feature offset zero, and the output's block indices range over 4 × 20. -/
theorem block_indices : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 3
    ∧ win0_2.index t (1 : Fin 3) ≤ 19 :=
  (by decide +kernel : ∀ t : Fin grid0.N, _)

/-- Every (edge type, tile) pair is some grid point's output block. -/
theorem block_onto : ∀ (q0 : Fin 4) (q1 : Fin 20), ∃ t : Fin cfg0.N, win0_2.index t = ![q0.val, q1.val, 0] :=
  (by decide +kernel : ∀ (q0 : Fin 4) (q1 : Fin 20), ∃ t : Fin grid0.N, win0_2.index t = ![q0.val, q1.val, 0])

/-- WHAT POINT `t` WRITES BACK is block `t` of the message array of the gathered rows and the weights as the region
    finds them. -/
theorem flushed_eq (c : Dev nD) (t : Fin cfg0.N) :
    (dats m 0 c).flushed 2 t
      = ((cfg0.win 2).blk t).view.read (Elt Ideal) (Cert.Messages.messages (rowsArr m c) (weightsArr m c)) := by
  show (cfg0.win 2).cut (grid0.coords t) ((dats m 0 c).after 2 t) = _
  rw [after0_2]
  unfold out0_2
  rw [View.canon_unit_zero offsets_zero]
  simp only [View.ld_unit_zero (S := S1x2000x512) offsets_zero, View.ld_unit_zero (S := S1x512x512) offsets_zero]
  obtain ⟨e0, e1, e2, e3, e4, e5, e6, e7, e8⟩ := block_indices t
  funext j
  have hj : j = ix3 0 (j 1) (j 2) := funext fun a => Fin.ext (by
    match a with
    | ⟨0, _⟩ => have h : (j 0).val < 1 := (j 0).isLt; show (j 0).val = 0; omega
    | ⟨1, _⟩ => rfl
    | ⟨2, _⟩ => rfl)
  rw [hj]
  show k0_pay1 (F := Ideal) (iblk m c 0 t) (iblk m c 1 t) (ix3 0 (j 1) (j 2))
    = Cert.Messages.messages (rowsArr m c) (weightsArr m c) (((cfg0.win 2).blk t).view.emb (ix3 0 (j 1) (j 2)))
  refine (BlockValue.payload_apply (iblk m c 0 t) (iblk m c 1 t) (j 1) (j 2)).trans ?_
  show _ = ∑ k : Fin 512, _
  refine Finset.sum_congr rfl fun k _ => ?_
  show rowsArr m c (((cfg0.win 0).blk t).view.emb (ix3 0 (j 1) k)) * weightsArr m c (((cfg0.win 1).blk t).view.emb (ix3 0 k (j 2))) = _
  have h0 : ((cfg0.win 0).blk t).view.emb (ix3 0 (j 1) k)
      = ix3 ((((cfg0.win 2).blk t).view.emb (ix3 0 (j 1) (j 2))) 0) ((((cfg0.win 2).blk t).view.emb (ix3 0 (j 1) (j 2))) 1) k := by
    funext a; apply Fin.ext
    match a with
    | ⟨0, _⟩ => show win0_0.index t (0 : Fin 3) * 1 + 1 * 0 = win0_2.index t (0 : Fin 3) * 1 + 1 * 0; omega
    | ⟨1, _⟩ => show win0_0.index t (1 : Fin 3) * 2000 + 1 * (j 1).val = win0_2.index t (1 : Fin 3) * 2000 + 1 * (j 1).val; omega
    | ⟨2, _⟩ => show win0_0.index t (2 : Fin 3) * 512 + 1 * k.val = k.val; omega
  have h1 : ((cfg0.win 1).blk t).view.emb (ix3 0 k (j 2))
      = ix3 ((((cfg0.win 2).blk t).view.emb (ix3 0 (j 1) (j 2))) 0) k ((((cfg0.win 2).blk t).view.emb (ix3 0 (j 1) (j 2))) 2) := by
    funext a; apply Fin.ext
    match a with
    | ⟨0, _⟩ => show win0_1.index t (0 : Fin 3) * 1 + 1 * 0 = win0_2.index t (0 : Fin 3) * 1 + 1 * 0; omega
    | ⟨1, _⟩ => show win0_1.index t (1 : Fin 3) * 512 + 1 * k.val = k.val; omega
    | ⟨2, _⟩ => show win0_1.index t (2 : Fin 3) * 512 + 1 * (j 2).val = win0_2.index t (2 : Fin 3) * 512 + 1 * (j 2).val; omega
  rw [h0, h1]
  rfl

/-- An index of the message array is in point `t`'s block iff each coordinate is in the block's range on its axis. -/
theorem mem_block (t : Fin cfg0.N) (i : S4x40000x512.Idx) :
    i ∈ ((cfg0.win 2).blk t).view.set ↔ ∀ a : Fin 3, win0_2.index t a * S1x2000x512.size a ≤ (i a).val ∧ (i a).val < win0_2.index t a * S1x2000x512.size a + S1x2000x512.size a := by
  show i ∈ ((View.whole main_v11).slice (win0_2.rect t)).set ↔ _
  rw [View.set_slice_whole, Rect.mem_set_unit]
  exact Iff.rfl

/-- The blocks tile the array: `(l, e, h)` is written by the point of edge type `l` and tile `e / 2000`. -/
theorem covered (i : S4x40000x512.Idx) :
    ∃ t : Fin cfg0.N, (cfg0.win 2).flush t = true ∧ i ∈ ((cfg0.win 2).blk t).view.set := by
  have hi0 : (i 0).val < 4 := (i 0).isLt
  have hi1 : (i 1).val < 40000 := (i 1).isLt
  have hi2 : (i 2).val < 512 := (i 2).isLt
  obtain ⟨t, ht⟩ := block_onto ⟨(i 0).val, hi0⟩ ⟨(i 1).val / 2000, by omega⟩
  have q0 : win0_2.index t (0 : Fin 3) = (i 0).val := congrFun ht 0
  have q1 : win0_2.index t (1 : Fin 3) = (i 1).val / 2000 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 2000 ≤ (i 1).val ∧ (i 1).val < win0_2.index t (1 : Fin 3) * 2000 + 2000; omega
  | ⟨2, _⟩ => show win0_2.index t (2 : Fin 3) * 512 ≤ (i 2).val ∧ (i 2).val < win0_2.index t (2 : Fin 3) * 512 + 512; omega

/-- THE MESSAGE ARRAY after the region: `messages` of the gathered rows and the weights as the region finds them. -/
theorem final (c : Dev nD) :
    (dats m 0 c).arrAt 2 cfg0.N = Cert.Messages.messages (rowsArr m c) (weightsArr m c) :=
  (dats m 0 c).arrAt_eq_of_cover 2 (Cert.Messages.messages (rowsArr m c) (weightsArr m c))
    (fun t _ => flushed_eq m c t) covered

end Cert.KernelIdeal.KernelValue

end
-- ==== Proof.KernelRun.lean ====
/-
  The kernel program's result as a function of its arguments.

  Before the region the host lines split the adjacency list into source and target node ids, wrap negative source ids by
  the node count, and gather the source rows: the gathered-rows array is `sourceRows x adj`. After the region the host
  lines flatten the message array's two edge axes, scatter-add its rows into a zero array at the target ids, and take the
  maximum with zero: `aggregate msgs adj`. The region itself leaves `Cert.Messages.messages` of the gathered rows and the
  weights (`KernelValue.final`). So the program ends with

      aggregate (messages (sourceRows x adj) W) adj

  in its result buffer, its three arguments unchanged.
-/
import proofs.«120066_j7507602833984_1_alg».proof.Proof.MessagesArray
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The source node id of every edge: column 0 of the adjacency list, as a `[4, 40000]` array. -/
def sourceIds (x1 : (⟨S4x40000x2, .i32⟩ : BufTy).Contents (Elt Ideal)) : (⟨S4x40000, .i32⟩ : BufTy).Contents (Elt Ideal) :=
  shapeCast _ (extractStridedSlice S4x40000x1 ![0, 0, 0] x1 slices_S4x40000x2_S4x40000x1_0_0_0) shapeCasts_S4x40000x1_S4x40000

/-- The target node id of every edge: column 1 of the adjacency list, as a `[4, 40000]` array. -/
def targetIds (x1 : (⟨S4x40000x2, .i32⟩ : BufTy).Contents (Elt Ideal)) : (⟨S4x40000, .i32⟩ : BufTy).Contents (Elt Ideal) :=
  shapeCast _ (extractStridedSlice S4x40000x1 ![0, 0, 1] x1 slices_S4x40000x2_S4x40000x1_0_0_1) shapeCasts_S4x40000x1_S4x40000

/-- The gathered source rows: row `src` of the node embeddings per edge, a negative id first moved up by the node count. -/
def sourceRows (x0 : (⟨S50000x512, .f32⟩ : BufTy).Contents (Elt Ideal)) (x1 : (⟨S4x40000x2, .i32⟩ : BufTy).Contents (Elt Ideal)) :
    (⟨S4x40000x512, .f32⟩ : BufTy).Contents (Elt Ideal) :=
  Host.gather gather_S50000x512_S4x40000x1_S4x40000x512_2_0_n_n_0_2_1512 x0
    (broadcastInDim S4x40000x1 ![0, 1] bcast_S4x40000_S4x40000x1_0_1
      (select (cmpi .slt (sourceIds x1) (broadcastInDim S4x40000 ![] bcast_S_S4x40000 (constantI S_ 32 0#32)))
        (addi (sourceIds x1) (broadcastInDim S4x40000 ![] bcast_S_S4x40000 (constantI S_ 32 50000#32)))
        (sourceIds x1)))

/-- What the program does with a message array: rows flattened to `[160000, 512]`, scatter-added into a zero
    `[50000, 512]` array at the rows the target ids name, then the maximum with zero. -/
def aggregate (msgs : (⟨S4x40000x512, .f32⟩ : BufTy).Contents (Elt Ideal)) (x1 : (⟨S4x40000x2, .i32⟩ : BufTy).Contents (Elt Ideal)) :
    (⟨S50000x512, .f32⟩ : BufTy).Contents (Elt Ideal) :=
  maximumf (F := Ideal) (Host.scatterAdd (F := Ideal) scatter_S50000x512_S160000x1_S160000x512_1_0_0_1
      (broadcastInDim S50000x512 ![] bcast_S_S50000x512 (constant (F := Ideal) S_ .f32 0x00000000#32))
      (broadcastInDim S160000x1 ![0] bcast_S160000_S160000x1_0 (shapeCast _ (targetIds x1) shapeCasts_S4x40000_S160000))
      (shapeCast _ msgs shapeCasts_S4x40000x512_S160000x512))
    (broadcastInDim S50000x512 ![] bcast_S_S50000x512 (constant (F := Ideal) S_ .f32 0x00000000#32))

/-! ## The host lines before the region -/

/-- The region finds the gathered source rows in its first operand's array. -/
theorem rows_eq (c : Dev nD) :
    rowsArr m c = sourceRows (m ((c : Thread nD τ).loc main_arg0)) (m ((c : Thread nD τ).loc main_arg1)) := by
  show StableHlo.after hostOps0 (fun b => m (c, b)) (Proc.devRef .tc main_v10) = _
  after_results
  rfl

/-- The weights are an argument no host line writes. -/
theorem weights_eq (c : Dev nD) : weightsArr m c = m ((c : Thread nD τ).loc main_arg2) := V_main_arg2 m c

/-- The target ids are computed before the region and read after it. -/
theorem targets_eq (c : Dev nD) :
    V0 m c (Proc.devRef .tc main_v3) = targetIds (m ((c : Thread nD τ).loc main_arg1)) := by
  show StableHlo.after hostOps0 (fun b => m (c, b)) (Proc.devRef .tc main_v3) = _
  after_results
  rfl

/-! ## The host lines after the region -/

/-- The result buffer after the two stretches of host lines that follow the region: `aggregate` of the region's
    message array and the adjacency list. -/
theorem tail_eq (c : Dev nD) :
    Pipeline.afterTail₀ cfgs (dats m) 0 (V0 m) [hostOps1, hostOps1_1] c main_v17
      = aggregate ((dats m 0 c).arrAt 2 cfg0.N) (m ((c : Thread nD τ).loc main_arg1)) := by
  have e11 : Pipeline.withArrays (cfgs 0).spec c (V0 m c) (fun w => (dats m 0 c).arrAt w (cfgs 0).N) (Proc.devRef .tc main_v11)
      = (dats m 0 c).arrAt 2 cfg0.N :=
    Pipeline.withArrays_arr spec0 launch0.win.arr_inj c (V0 m c) _ 2
  have e3 : Pipeline.withArrays (cfgs 0).spec c (V0 m c) (fun w => (dats m 0 c).arrAt w (cfgs 0).N) (Proc.devRef .tc main_v3)
      = targetIds (m ((c : Thread nD τ).loc main_arg1)) :=
    (Pipeline.withArrays_of_ne _ c (V0 m c) _ main_v3 (by exact (by decide : ∀ w, Pipeline.arrRef spec0 w ≠ main_v3))).trans
      (targets_eq m c)
  unfold Pipeline.afterTail₀
  simp only [hostOps1, hostOps1_1, List.flatten_cons, List.flatten_nil, List.append_nil, List.cons_append, List.nil_append]
  after_results
  rw [e11, e3]
  rfl

/-! ## The run -/

/-- Every weakly fair execution of the kernel program terminates with `aggregate (messages (sourceRows x adj) W) adj` in
    its result buffer and its arguments unchanged. -/
theorem run : θ_run defs (onTc (τ := τ) (main (F := Ideal))) ⟨m, fun _ => 0, ρ⟩ fun r => ∀ c : Dev nD,
      r.2.mem ((c.tc : Thread nD τ).loc main_v17)
          = aggregate (Cert.Messages.messages (sourceRows (m ((c.tc : Thread nD τ).loc main_arg0)) (m ((c.tc : Thread nD τ).loc main_arg1)))
              (m ((c.tc : Thread nD τ).loc main_arg2))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v17 (Pipeline.mem_restRefs_of main_v17 (by decide) (by decide))).trans
        ((tail_eq m c).trans (by rw [final m c, rows_eq m c, weights_eq m c])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c)))⟩)
    (run_main m ρ)

end Cert.KernelIdeal.KernelValue

end
-- ==== Proof.RefProduct.lean ====
/-
  The reference, read through its message array.

  The reference computes `relu (segment_sum (messages))` with `messages = einsum "led,ldh->leh" (x[src], W)`. Two facts:
  the batched contraction read at an index `(l, e, h)` is the inner product `Σ_k x[src](l, e, k) · W(l, k, h)`, that is
  `Cert.Messages.messages` of the gathered rows; and everything downstream of the message array — flattening the two edge
  axes, adding each row into the row of a zero array its target node names, and the final maximum with zero — is one
  function `aggregate` of the message array and the adjacency list, whatever produced the messages.
-/
import proofs.«120066_j7507602833984_1_alg».proof.Proof.Gen.ReferenceIdeal.Read
import proofs.«120066_j7507602833984_1_alg».proof.Proof.Messages

noncomputable section

namespace Cert.ReferenceIdeal.RefValue

open Cert.ReferenceIdeal Cert.ReferenceIdeal.Gen Cert.ReferenceIdeal.Read Idealize.ShloMosaic Idealize.ShloMosaic.ValueIdx

variable {F : FTy → Type} [FloatOps F]

/-- What the program does with a message array: rows flattened to `[160000, 512]`, scatter-added into a zero
    `[50000, 512]` array at the rows the target nodes name, then the maximum with zero. -/
def aggregate (msgs : (⟨S4x40000x512, .f32⟩ : BufTy).Contents (Elt F)) (x1 : (⟨S4x40000x2, .i32⟩ : BufTy).Contents (Elt F)) :
    (⟨S50000x512, .f32⟩ : BufTy).Contents (Elt F) :=
  maximumf (Host.scatterAdd scatter_S50000x512_S160000x1_S160000x512_1_0_0_1 (val_main_v14 (F := F)) (val_main_v15 (F := F) x1)
    (shapeCast _ msgs shapeCasts_S4x40000x512_S160000x512)) (val_main_call0_v0 (F := F))

/-- The reference's result is `aggregate` of its contraction stage. -/
theorem result_eq_aggregate (x0 : (⟨S50000x512, .f32⟩ : BufTy).Contents (Elt F)) (x1 : (⟨S4x40000x2, .i32⟩ : BufTy).Contents (Elt F))
    (x2 : (⟨S4x512x512, .f32⟩ : BufTy).Contents (Elt F)) :
    val_main_v17 (F := F) x0 x1 x2 = aggregate (val_main_v11 (F := F) x0 x1 x2) x1 := rfl

/-- The contraction stage is the message array of the gathered rows: at `(l, e, h)` the sum over the shared feature
    axis of gathered row entry times weight entry. -/
theorem product_eq_messages (x0 : (⟨S50000x512, .f32⟩ : BufTy).Contents (Elt Ideal)) (x1 : (⟨S4x40000x2, .i32⟩ : BufTy).Contents (Elt Ideal))
    (x2 : (⟨S4x512x512, .f32⟩ : BufTy).Contents (Elt Ideal)) :
    val_main_v11 (F := Ideal) x0 x1 x2 = Cert.Messages.messages (val_main_v10 (F := Ideal) x0 x1) x2 := by
  funext i
  rw [val_main_v11_apply]
  show _ = ∑ k : Fin 512, _
  refine Finset.sum_congr rfl fun k _ => ?_
  have el : lidx_main_v11 i k = ix3 (i 0) (i 1) k :=
    funext fun a => Fin.ext (by match a with | ⟨0, _⟩ => rfl | ⟨1, _⟩ => rfl | ⟨2, _⟩ => rfl)
  have er : ridx_main_v11 i k = ix3 (i 0) k (i 2) :=
    funext fun a => Fin.ext (by match a with | ⟨0, _⟩ => rfl | ⟨1, _⟩ => rfl | ⟨2, _⟩ => rfl)
  rw [el, er]
  rfl

end Cert.ReferenceIdeal.RefValue

end
-- ==== Proof.lean ====
/-
  The kernel computes, per edge type, the messages `x[src] · W[l]` on the matrix unit, tile by tile, and leaves the gather of
  the source rows, the scatter-add of the messages to their target nodes and the final maximum with zero to the host; the
  reference does the same gather, ONE batched contraction, and the same scatter-add and maximum.

  Read on the extended reals, both message arrays are the one function `Cert.Messages.messages` of the gathered rows and the
  weights: entry `(l, e, h)` is `Σ_{k<512} x[src](l, e, k) · W(l, k, h)`. The kernel reaches it as 80 blocks that tile the
  array, each block a product into a zero accumulator whose factors pass through a narrower float format (the identity on
  extended reals); the reference as a contraction with edge type as the batch axis. The host lines before and after are
  the same operations with the same constants in both programs, so they are carried along as functions (`sourceRows`,
  `aggregate`) and never opened. No law beyond `0 + x = x` and re-indexing a finite sum is used, so the inputs'
  finiteness is not needed, and nothing is asked of the integer node ids.

  The kernel program's idealization rewrote no operation, so it is the kernel's own text read on the extended reals.
-/
import proofs.«120066_j7507602833984_1_alg».proof.Defs
import proofs.«120066_j7507602833984_1_alg».proof.Proof.Gen.Kernel
import proofs.«120066_j7507602833984_1_alg».proof.Proof.Gen.Kernel.Skeleton
import proofs.«120066_j7507602833984_1_alg».proof.Proof.Gen.Kernel.Launch
import proofs.«120066_j7507602833984_1_alg».proof.Proof.Gen.Kernel.Points
import proofs.«120066_j7507602833984_1_alg».proof.Proof.Gen.Kernel.Frame
import proofs.«120066_j7507602833984_1_alg».proof.Proof.Gen.KernelIdeal
import proofs.«120066_j7507602833984_1_alg».proof.Proof.Gen.KernelIdeal.Skeleton
import proofs.«120066_j7507602833984_1_alg».proof.Proof.Gen.KernelIdeal.Launch
import proofs.«120066_j7507602833984_1_alg».proof.Proof.Gen.KernelIdeal.Points
import proofs.«120066_j7507602833984_1_alg».proof.Proof.Gen.KernelIdeal.Frame
import proofs.«120066_j7507602833984_1_alg».proof.Proof.Gen.ReferenceIdeal
import proofs.«120066_j7507602833984_1_alg».proof.Proof.Gen.ReferenceIdeal.Run
import proofs.«120066_j7507602833984_1_alg».proof.Proof.Gen.ReferenceIdeal.Read
import proofs.«120066_j7507602833984_1_alg».proof.Proof.Gen.Pre_finite_inputs
import proofs.«120066_j7507602833984_1_alg».proof.Proof.KernelRun
import proofs.«120066_j7507602833984_1_alg».proof.Proof.RefProduct
import Idealize.ShloMosaic.Adequacy
import Idealize.ShloMosaic.Init

noncomputable section

namespace Cert.Proof

open Idealize.ShloMosaic Idealize.SL.Sem

/-! ## The frames -/

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-! ## The two programs end with equal results -/

/-- The two programs gather the same rows: the same slice, wrap and gather of the same arguments. -/
theorem sourceRows_eq (x0 : (⟨Cert.ReferenceIdeal.S50000x512, .f32⟩ : BufTy).Contents (Elt Ideal))
    (x1 : (⟨Cert.ReferenceIdeal.S4x40000x2, .i32⟩ : BufTy).Contents (Elt Ideal)) :
    Cert.ReferenceIdeal.Read.val_main_v10 (F := Ideal) x0 x1 = Cert.KernelIdeal.KernelValue.sourceRows x0 x1 := rfl

/-- The two programs do the same to a message array: the same flattening, scatter-add into zeros and maximum with zero. -/
theorem aggregate_eq (msgs : (⟨Cert.ReferenceIdeal.S4x40000x512, .f32⟩ : BufTy).Contents (Elt Ideal))
    (x1 : (⟨Cert.ReferenceIdeal.S4x40000x2, .i32⟩ : BufTy).Contents (Elt Ideal)) :
    Cert.ReferenceIdeal.RefValue.aggregate (F := Ideal) msgs x1 = Cert.KernelIdeal.KernelValue.aggregate msgs x1 := rfl

/-- On the extended reals the kernel program ends with `aggregate (messages (sourceRows x adj) W) adj` (its run, read off
    the frame), and so does the reference: its contraction stage is `messages` of the rows it gathers. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq _ _ _).trans ?_
  rw [Cert.ReferenceIdeal.RefValue.result_eq_aggregate, Cert.ReferenceIdeal.RefValue.product_eq_messages,
    sourceRows_eq, aggregate_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
